-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x5000 : Shape := ⟨3, ![128, 128, 5000]⟩
abbrev S2560 : Shape := ⟨1, ![2560]⟩
abbrev S_ : Shape := ⟨0, ![]⟩

class Facts : Prop where
  bcast_S_S128x128x5000 : S_.BroadcastsInDim S128x128x5000 (![] : Fin 0 → Fin S128x128x5000.rank)
  reducesTo_S128x128x5000_S_d0_1_2 : S128x128x5000.ReducesTo [0, 1, 2] S_
  h_S_ : 0 < S_.numel

variable [Facts]

def fn {F : FTy → Type} [FloatOps F] (main_arg0 : FVec F S128x128x5000 .f32) (main_arg1 : IVec S2560 32) : IVec S_ 1 :=
  let main_v0 : FVec F S128x128x5000 .f32 := Host.absf main_arg0
  let main_cst : FVec F S_ .f32 := constant S_ .f32 0x7F800000#32
  let main_v1 : FVec F S128x128x5000 .f32 := broadcastInDim S128x128x5000 ![] bcast_S_S128x128x5000 main_cst
  let main_v2 : IVec S128x128x5000 1 := cmpf .olt main_v0 main_v1
  let main_c : IVec S_ 1 := constantI S_ 1 1#1
  let main_v3 : IVec S_ 1 := (fun x v => Host.reduce IntOp.andi x v reducesTo_S128x128x5000_S_d0_1_2 h_S_) main_v2 main_c
  main_v3
-- ==== Kernel.lean ====
abbrev S128x128x5000 : Shape := ⟨3, ![128, 128, 5000]⟩
abbrev S2560 : Shape := ⟨1, ![2560]⟩
abbrev S_ : Shape := ⟨0, ![]⟩
abbrev S25600 : Shape := ⟨1, ![25600]⟩
abbrev S2560x1 : Shape := ⟨2, ![2560, 1]⟩
abbrev S128x200 : Shape := ⟨2, ![128, 200]⟩
abbrev S128x200x25 : Shape := ⟨3, ![128, 200, 25]⟩
abbrev S128x5000 : Shape := ⟨2, ![128, 5000]⟩
abbrev S1x128x5000 : Shape := ⟨3, ![1, 128, 5000]⟩
abbrev S4x128x5000 : Shape := ⟨3, ![4, 128, 5000]⟩

abbrev nBuf : Space → Nat
  | .hbm => 20
  | .vmem => 5
  | .smem => 0
  | _ => 0

abbrev bufTy : (tb : Table) → Fin (tcTables nBuf tb) → BufTy
  | .hbm, ⟨0, _⟩ => ⟨S128x128x5000, .f32⟩
  | .hbm, ⟨1, _⟩ => ⟨S2560, .i32⟩
  | .hbm, ⟨2, _⟩ => ⟨S_, .f32⟩
  | .hbm, ⟨3, _⟩ => ⟨S25600, .f32⟩
  | .hbm, ⟨4, _⟩ => ⟨S_, .i32⟩
  | .hbm, ⟨5, _⟩ => ⟨S2560, .i32⟩
  | .hbm, ⟨6, _⟩ => ⟨S2560, .i1⟩
  | .hbm, ⟨7, _⟩ => ⟨S_, .i32⟩
  | .hbm, ⟨8, _⟩ => ⟨S2560, .i32⟩
  | .hbm, ⟨9, _⟩ => ⟨S2560, .i32⟩
  | .hbm, ⟨10, _⟩ => ⟨S2560, .i32⟩
  | .hbm, ⟨11, _⟩ => ⟨S2560x1, .i32⟩
  | .hbm, ⟨12, _⟩ => ⟨S_, .f32⟩
  | .hbm, ⟨13, _⟩ => ⟨S2560, .f32⟩
  | .hbm, ⟨14, _⟩ => ⟨S25600, .f32⟩
  | .hbm, ⟨15, _⟩ => ⟨S128x200, .f32⟩
  | .hbm, ⟨16, _⟩ => ⟨S128x200x25, .f32⟩
  | .hbm, ⟨17, _⟩ => ⟨S128x5000, .f32⟩
  | .hbm, ⟨18, _⟩ => ⟨S1x128x5000, .f32⟩
  | .hbm, ⟨19, _⟩ => ⟨S128x128x5000, .f32⟩
  | .local _ .vmem, ⟨0, _⟩ => ⟨S4x128x5000, .f32⟩
  | .local _ .vmem, ⟨1, _⟩ => ⟨S4x128x5000, .f32⟩
  | .local _ .vmem, ⟨2, _⟩ => ⟨S1x128x5000, .f32⟩
  | .local _ .vmem, ⟨3, _⟩ => ⟨S4x128x5000, .f32⟩
  | .local _ .vmem, ⟨4, _⟩ => ⟨S4x128x5000, .f32⟩
  | _, _ => ⟨S128x128x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128x5000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x128x5000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S25600 : S_.BroadcastsInDim S25600 (![] : Fin 0 → Fin S25600.rank)
  bcast_S_S2560 : S_.BroadcastsInDim S2560 (![] : Fin 0 → Fin S2560.rank)
  bcast_S2560_S2560x1_0 : S2560.BroadcastsInDim S2560x1 (![0] : Fin 1 → Fin S2560x1.rank)
  shapeCasts_S25600_S128x200 : S25600.ShapeCasts S128x200
  bcast_S128x200_S128x200x25_0_1 : S128x200.BroadcastsInDim S128x200x25 (![0, 1] : Fin 2 → Fin S128x200x25.rank)
  shapeCasts_S128x200x25_S128x5000 : S128x200x25.ShapeCasts S128x5000
  bcast_S128x5000_S1x128x5000_1_2 : S128x5000.BroadcastsInDim S1x128x5000 (![1, 2] : Fin 2 → Fin S1x128x5000.rank)
  inb_S4x128x5000_S4x128x5000_0_0_0 : ∀ a, (![0, 0, 0] : Fin 3 → Nat) a + S4x128x5000.size a ≤ S4x128x5000.size a
  h_S4x128x5000 : 0 < S4x128x5000.numel
  inb_S1x128x5000_S1x128x5000_0_0_0 : ∀ a, (![0, 0, 0] : Fin 3 → Nat) a + S1x128x5000.size a ≤ S1x128x5000.size a
  h_S1x128x5000 : 0 < S1x128x5000.numel
  shapeCasts_S1x128x5000_S1x128x5000 : S1x128x5000.ShapeCasts S1x128x5000
  broadcasts_S1x128x5000_S4x128x5000 : S1x128x5000.Broadcasts S4x128x5000
  scatter_S25600_S2560x1_S2560_n_0_0_1_wf : ScatterDims.WF S25600 S2560x1 S2560 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x5000.size a ≤ S128x128x5000.size a
  hwx0_0 : ∀ i : grid0.Coords, EltTy.bits .f32 = 32 ∨ (Rect.block (s := S128x128x5000) S4x128x5000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128x5000.size a ≤ S1x128x5000.size a
  hwx0_1 : ∀ i : grid0.Coords, EltTy.bits .f32 = 32 ∨ (Rect.block (s := S1x128x5000) S1x128x5000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x128x5000.size a ≤ S128x128x5000.size a
  hwx0_2 : ∀ i : grid0.Coords, EltTy.bits .f32 = 32 ∨ (Rect.block (s := S128x128x5000) S4x128x5000.size (cc0_transform_2 i) (hinb0_2 i)).WholeWords (EltTy.packing .f32)

variable [Facts₀]

def scatter_S25600_S2560x1_S2560_n_0_0_1 : ScatterDims S25600 S2560x1 S2560 where
  updateWindowDims := []
  insertedWindowDims := [0]
  scatterDimsToOperandDims := [0]
  indexVectorDim := 1
  wf := scatter_S25600_S2560x1_S2560_n_0_0_1_wf

abbrev win0_0 : Pipeline.Window sig grid0 :=
  Pipeline.Window.ofSpec (Memref.whole main_arg0) S4x128x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x128x5000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4x128x5000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x128x5000 : Shape := ⟨3, ![128, 128, 5000]⟩
abbrev S2560 : Shape := ⟨1, ![2560]⟩
abbrev S_ : Shape := ⟨0, ![]⟩
abbrev S25600 : Shape := ⟨1, ![25600]⟩
abbrev S2560x1 : Shape := ⟨2, ![2560, 1]⟩
abbrev S128x200 : Shape := ⟨2, ![128, 200]⟩
abbrev S128x200x25 : Shape := ⟨3, ![128, 200, 25]⟩
abbrev S128x5000 : Shape := ⟨2, ![128, 5000]⟩
abbrev S1x128x5000 : Shape := ⟨3, ![1, 128, 5000]⟩

abbrev nBuf : Space → Nat
  | .hbm => 21
  | .vmem => 0
  | .smem => 0
  | _ => 0

abbrev bufTy : (tb : Table) → Fin (tcTables nBuf tb) → BufTy
  | .hbm, ⟨0, _⟩ => ⟨S128x128x5000, .f32⟩
  | .hbm, ⟨1, _⟩ => ⟨S2560, .i32⟩
  | .hbm, ⟨2, _⟩ => ⟨S_, .f32⟩
  | .hbm, ⟨3, _⟩ => ⟨S25600, .f32⟩
  | .hbm, ⟨4, _⟩ => ⟨S_, .i32⟩
  | .hbm, ⟨5, _⟩ => ⟨S2560, .i32⟩
  | .hbm, ⟨6, _⟩ => ⟨S2560, .i1⟩
  | .hbm, ⟨7, _⟩ => ⟨S_, .i32⟩
  | .hbm, ⟨8, _⟩ => ⟨S2560, .i32⟩
  | .hbm, ⟨9, _⟩ => ⟨S2560, .i32⟩
  | .hbm, ⟨10, _⟩ => ⟨S2560, .i32⟩
  | .hbm, ⟨11, _⟩ => ⟨S2560x1, .i32⟩
  | .hbm, ⟨12, _⟩ => ⟨S_, .f32⟩
  | .hbm, ⟨13, _⟩ => ⟨S2560, .f32⟩
  | .hbm, ⟨14, _⟩ => ⟨S25600, .f32⟩
  | .hbm, ⟨15, _⟩ => ⟨S128x200, .f32⟩
  | .hbm, ⟨16, _⟩ => ⟨S128x200x25, .f32⟩
  | .hbm, ⟨17, _⟩ => ⟨S128x5000, .f32⟩
  | .hbm, ⟨18, _⟩ => ⟨S1x128x5000, .f32⟩
  | .hbm, ⟨19, _⟩ => ⟨S128x128x5000, .f32⟩
  | .hbm, ⟨20, _⟩ => ⟨S128x128x5000, .f32⟩
  | _, _ => ⟨S128x128x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S_S25600 : S_.BroadcastsInDim S25600 (![] : Fin 0 → Fin S25600.rank)
  bcast_S_S2560 : S_.BroadcastsInDim S2560 (![] : Fin 0 → Fin S2560.rank)
  bcast_S2560_S2560x1_0 : S2560.BroadcastsInDim S2560x1 (![0] : Fin 1 → Fin S2560x1.rank)
  shapeCasts_S25600_S128x200 : S25600.ShapeCasts S128x200
  bcast_S128x200_S128x200x25_0_1 : S128x200.BroadcastsInDim S128x200x25 (![0, 1] : Fin 2 → Fin S128x200x25.rank)
  shapeCasts_S128x200x25_S128x5000 : S128x200x25.ShapeCasts S128x5000
  bcast_S128x5000_S1x128x5000_1_2 : S128x5000.BroadcastsInDim S1x128x5000 (![1, 2] : Fin 2 → Fin S1x128x5000.rank)
  bcast_S1x128x5000_S128x128x5000_0_1_2 : S1x128x5000.BroadcastsInDim S128x128x5000 (![0, 1, 2] : Fin 3 → Fin S128x128x5000.rank)
  scatter_S25600_S2560x1_S2560_n_0_0_1_wf : ScatterDims.WF S25600 S2560x1 S2560 [] [0] [0] 1

variable [Facts₀]

def scatter_S25600_S2560x1_S2560_n_0_0_1 : ScatterDims S25600 S2560x1 S2560 where
  updateWindowDims := []
  insertedWindowDims := [0]
  scatterDimsToOperandDims := [0]
  indexVectorDim := 1
  wf := scatter_S25600_S2560x1_S2560_n_0_0_1_wf

class Facts : Prop extends Facts₀ where

variable [Facts]
-- ==== Proof.MaskedProduct.lean ====
/-
  The function both programs compute.

  The input `x` has one entry per (batch, channel, time) triple; the mask has one entry per (channel, time)
  pair, stored with a leading axis of extent one. The result multiplies every entry of `x` by the mask entry
  at the same channel and time, whatever the batch: out[b, c, t] = x[b, c, t] · mask[0, c, t].
  Nothing is said here about how the mask is made from the index input: both programs make it by the same
  operations, and the product never looks inside it.
-/
import Idealize.ShloMosaic.PureOps
import Idealize.ShloMosaic.Lib.ValueIdx

noncomputable section

namespace Cert.PatchMask

open Idealize.ShloMosaic

/-- The shape of the input and of the result: batch × channel × time. -/
abbrev Sx : Shape := ⟨3, ![128, 128, 5000]⟩
/-- The shape of the mask: one batch row, channel × time. -/
abbrev Sm : Shape := ⟨3, ![1, 128, 5000]⟩

/-- The mask position under an entry of the input: its channel and time, in the single batch row. -/
abbrev under (i : Sx.Idx) : Sm.Idx := ValueIdx.ix3 (0 : Fin 1) (i 1) (i 2)

variable {F : FTy → Type} [FloatOps F]

/-- The masked input: every entry times the mask entry at its channel and time. -/
def masked (x : Vec F Sx .f32) (mk : Vec F Sm .f32) : Vec F Sx .f32 :=
  fun i => FloatOps.mulf (x i) (mk (under i))

theorem masked_apply (x : Vec F Sx .f32) (mk : Vec F Sm .f32) (i : Sx.Idx) :
    masked x mk i = FloatOps.mulf (x i) (mk (under i)) := rfl

end Cert.PatchMask

end
-- ==== Proof.KernelArray.lean ====
/-
  What the kernel leaves in its result array.

  The grid has 32 points; point `t` works on the four batch rows 4t … 4t+3 of the input, all channels and all
  times, and on the whole mask (one batch row). The body multiplies the block of the input by the mask spread
  over the four rows and stores the product as the block of the result. So the block a point writes back is
  the same four rows of ONE array, the input masked entry by entry; the 32 blocks fill the 128 rows, and the
  result array ends as that array.
-/
import proofs.«138446_j6004364279952_1_alg».proof.Proof.Gen.KernelIdeal.Value
import proofs.«138446_j6004364279952_1_alg».proof.Proof.MaskedProduct

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.PatchMask (masked under)

variable {F : FTy → Type} [FloatOps F]
variable (m : (ℓ : Loc nD τ sig) → Buf (Elt F) ℓ) (ρ : Dev nD → PrngReg)

/-- The body's accesses all start at the origin of their buffers. -/
theorem origin : (![0, 0, 0] : Fin 3 → Nat) = fun _ => 0 := funext fun a => by fin_cases a <;> rfl

/-- The block the body leaves, entry by entry: the input block's entry times the mask's entry at the same channel
    and time (the mask has one batch row, which every row of the block meets). -/
theorem block_apply (x0 : Vec F S4x128x5000 .f32) (x1 : Vec F S1x128x5000 .f32) (y : S4x128x5000.Idx) :
    out0_2 x0 x1 y = FloatOps.mulf (x0 y) (x1 (ValueIdx.ix3 (0 : Fin 1) (y 1) (y 2))) := by
  unfold out0_2
  rw [Cert.KernelIdeal.Value.canon2_eq]
  show FloatOps.mulf (View.ld x0 r0_0 (Cert.KernelIdeal.Value.ix2_0 y)) (View.ld x1 r0_1 (Cert.KernelIdeal.Value.ix2_1 y)) = _
  rw [View.ld_unit_zero (S := S4x128x5000) origin, View.ld_unit_zero (S := S1x128x5000) origin]
  have e0 : Cert.KernelIdeal.Value.ix2_0 y = y := by
    funext a; apply Fin.ext
    match a with | ⟨0, _⟩ => rfl | ⟨1, _⟩ => rfl | ⟨2, _⟩ => rfl
  have e1 : Cert.KernelIdeal.Value.ix2_1 y = ValueIdx.ix3 (0 : Fin 1) (y 1) (y 2) := by
    funext a; apply Fin.ext
    match a with | ⟨0, _⟩ => rfl | ⟨1, _⟩ => rfl | ⟨2, _⟩ => rfl
  rw [e0, e1]
  rfl

/-- The printed index maps over the grid: the input's and the result's blocks sit at the same place, batch block
    `t` and nothing else; the mask's block is always the whole mask. -/
theorem places : ∀ t : Fin cfg0.N, win0_0.index t (0 : Fin 3) = win0_2.index t (0 : Fin 3)
    ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) ≤ 31 ∧ win0_2.index t (1 : Fin 3) = 0 ∧ win0_2.index t (2 : Fin 3) = 0 :=
  (by decide +kernel : ∀ t : Fin grid0.N, _)

/-- Every batch block is some point's. -/
theorem every_block : ∀ q : Fin 32, ∃ t : Fin cfg0.N, win0_2.index t = ![q.val, 0, 0] :=
  (by decide +kernel : ∀ q : Fin 32, ∃ t : Fin grid0.N, win0_2.index t = ![q.val, 0, 0])

/-- What point `t` writes back is its four batch rows of the masked input, the input and the mask as the region
    finds them. -/
theorem flushed_eq (c : Dev nD) (t : Fin cfg0.N) :
    (dats m 0 c).flushed 2 t = ((cfg0.win 2).blk t).view.read (Elt F) (masked (V m c main_arg0) (V m c main_v12)) := by
  rw [Cert.KernelIdeal.Value.flushed2]
  obtain ⟨p0, p1, p2, p3, p4, p5, p6, p7, p8⟩ := places t
  funext j
  show out0_2 (iblk m c 0 t) (iblk m c 1 t) j = masked (V m c main_arg0) (V m c main_v12) (((cfg0.win 2).blk t).view.emb j)
  refine (block_apply (iblk m c 0 t) (iblk m c 1 t) j).trans ?_
  show FloatOps.mulf (V m c main_arg0 (((cfg0.win 0).blk t).view.emb j)) (V m c main_v12 (((cfg0.win 1).blk t).view.emb (ValueIdx.ix3 (0 : Fin 1) (j 1) (j 2))))
    = FloatOps.mulf (V m c main_arg0 (((cfg0.win 2).blk t).view.emb j)) (V m c main_v12 (under (((cfg0.win 2).blk t).view.emb j)))
  have h0 : ((cfg0.win 0).blk t).view.emb j = ((cfg0.win 2).blk t).view.emb j := by
    funext a; apply Fin.ext
    match a with
    | ⟨0, _⟩ => show win0_0.index t (0 : Fin 3) * 4 + 1 * (j 0).val = win0_2.index t (0 : Fin 3) * 4 + 1 * (j 0).val; omega
    | ⟨1, _⟩ => show win0_0.index t (1 : Fin 3) * 128 + 1 * (j 1).val = win0_2.index t (1 : Fin 3) * 128 + 1 * (j 1).val; omega
    | ⟨2, _⟩ => show win0_0.index t (2 : Fin 3) * 5000 + 1 * (j 2).val = win0_2.index t (2 : Fin 3) * 5000 + 1 * (j 2).val; omega
  have h1 : ((cfg0.win 1).blk t).view.emb (ValueIdx.ix3 (0 : Fin 1) (j 1) (j 2)) = under (((cfg0.win 2).blk t).view.emb j) := by
    funext a; apply Fin.ext
    match a with
    | ⟨0, _⟩ => show win0_1.index t (0 : Fin 3) * 1 + 1 * 0 = 0; omega
    | ⟨1, _⟩ => show win0_1.index t (1 : Fin 3) * 128 + 1 * (j 1).val = win0_2.index t (1 : Fin 3) * 128 + 1 * (j 1).val; omega
    | ⟨2, _⟩ => show win0_1.index t (2 : Fin 3) * 5000 + 1 * (j 2).val = win0_2.index t (2 : Fin 3) * 5000 + 1 * (j 2).val; omega
  rw [h0, h1]

/-- An entry of the result array is in point `t`'s block iff each coordinate is in the block's range on its axis. -/
theorem mem_block (t : Fin cfg0.N) (i : S128x128x5000.Idx) :
    i ∈ ((cfg0.win 2).blk t).view.set ↔ ∀ a : Fin 3, win0_2.index t a * S4x128x5000.size a ≤ (i a).val ∧ (i a).val < win0_2.index t a * S4x128x5000.size a + S4x128x5000.size a := by
  show i ∈ ((View.whole main_v13).slice (win0_2.rect t)).set ↔ _
  rw [View.set_slice_whole, Rect.mem_set_unit]
  exact Iff.rfl

/-- The 32 blocks fill the array: batch row `b` is in the block of point `b / 4`. -/
theorem filled (i : S128x128x5000.Idx) :
    ∃ t : Fin cfg0.N, (cfg0.win 2).flush t = true ∧ i ∈ ((cfg0.win 2).blk t).view.set := by
  have hi0 : (i 0).val < 128 := (i 0).isLt
  have hi1 : (i 1).val < 128 := (i 1).isLt
  have hi2 : (i 2).val < 5000 := (i 2).isLt
  obtain ⟨t, ht⟩ := every_block ⟨(i 0).val / 4, by omega⟩
  have q0 : win0_2.index t (0 : Fin 3) = (i 0).val / 4 := congrFun ht 0
  have q1 : win0_2.index t (1 : Fin 3) = 0 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 128 ≤ (i 1).val ∧ (i 1).val < win0_2.index t (1 : Fin 3) * 128 + 128; omega
  | ⟨2, _⟩ => show win0_2.index t (2 : Fin 3) * 5000 ≤ (i 2).val ∧ (i 2).val < win0_2.index t (2 : Fin 3) * 5000 + 5000; omega

/-- The result array after the run is the masked input. -/
theorem whole (c : Dev nD) :
    (dats m 0 c).arrAt 2 cfg0.N = masked (V m c main_arg0) (V m c main_v12) :=
  (dats m 0 c).arrAt_eq_of_cover 2 (masked (V m c main_arg0) (V m c main_v12)) (fun t _ => flushed_eq m c t) filled

/-- The kernel's run: every weakly fair execution ends with the result array at the input as launched, masked by
    the mask array as the region finds it, and the arguments unchanged. -/
theorem run : θ_run defs (onTc (τ := τ) (main (F := F))) ⟨m, fun _ => 0, ρ⟩ fun r => ∀ c : Dev nD,
      r.2.mem ((c : Thread nD τ).loc main_v13) = masked (m ((c : Thread nD τ).loc main_arg0)) (V m c main_v12)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((whole m c).trans (by rw [V_main_arg0])), (h c).2⟩)
    (Cert.KernelIdeal.Value.run_blocks m ρ)

end Cert.KernelIdeal.Whole

end
-- ==== Proof.MaskArray.lean ====
/-
  The mask the kernel's region finds is the mask the reference multiplies by.

  Before its one region the kernel's program builds the mask from the index input by seventeen host operations
  (ones, the indices wrapped once when negative, a scatter of zeros, and each unit spread over its 25 samples by
  a reshape, a broadcast, a reshape and a broadcast). The reference builds it by the same seventeen operations on the same
  literals, so the array the region finds under the mask's window is, as a term of the index input, the
  reference's stage for it. Nothing here reads an entry of the mask.
-/
import proofs.«138446_j6004364279952_1_alg».proof.Proof.Gen.KernelIdeal.Frame
import proofs.«138446_j6004364279952_1_alg».proof.Proof.Gen.ReferenceIdeal.Read

noncomputable section

namespace Cert.PatchMask

open Idealize.ShloMosaic Idealize.ShloMosaic.TcCoe Idealize.SL.Sem Idealize.ShloMosaic.StableHlo

variable {F : FTy → Type} [FloatOps F]

set_option maxHeartbeats 1600000 in
/-- The mask array as the kernel's region finds it is the reference's mask stage of the index input as launched. -/
theorem region_mask (m : (ℓ : Loc Cert.KernelIdeal.nD Cert.KernelIdeal.τ Cert.KernelIdeal.sig) → Buf (Elt F) ℓ)
    (c : Dev Cert.KernelIdeal.nD) :
    (Cert.KernelIdeal.Gen.V m c Cert.KernelIdeal.main_v12 : Cert.KernelIdeal.S1x128x5000.Idx → Elt F .f32)
      = Cert.ReferenceIdeal.Read.val_main_v12 (F := F)
          (m ((c : Thread Cert.KernelIdeal.nD Cert.KernelIdeal.τ).loc Cert.KernelIdeal.main_arg1)) := by
  dsimp only [Cert.KernelIdeal.Gen.V, Cert.KernelIdeal.Gen.hostOps0]
  after_results
  rfl

end Cert.PatchMask

end
-- ==== Proof.ReferenceArray.lean ====
/-
  What the reference computes, entry by entry.

  The reference spreads the mask (one batch row) over the 128 batch rows and multiplies the input by it. An entry
  of the spread mask at (batch, channel, time) is the mask's entry at (0, channel, time), so the product is the
  masked input.
-/
import proofs.«138446_j6004364279952_1_alg».proof.Proof.Gen.ReferenceIdeal.Read
import proofs.«138446_j6004364279952_1_alg».proof.Proof.MaskedProduct

noncomputable section

namespace Cert.PatchMask

open Idealize.ShloMosaic Idealize.ShloMosaic.TcCoe

variable {F : FTy → Type} [FloatOps F]

/-- The reference's last stage is the masked input, the mask being its own mask stage of the index input. -/
theorem reference_result (x : (⟨Cert.ReferenceIdeal.S128x128x5000, .f32⟩ : BufTy).Contents (Elt F))
    (idx : (⟨Cert.ReferenceIdeal.S2560, .i32⟩ : BufTy).Contents (Elt F)) :
    Cert.ReferenceIdeal.Read.val_main_v14 (F := F) x idx
      = masked x (Cert.ReferenceIdeal.Read.val_main_v12 (F := F) idx) := by
  funext i
  rw [Cert.ReferenceIdeal.Read.val_main_v14_apply, Cert.ReferenceIdeal.Read.val_main_v13_apply, masked_apply]
  have e : Cert.ReferenceIdeal.Read.idx_main_v13 i = under i := by
    funext a; apply Fin.ext
    match a with | ⟨0, _⟩ => rfl | ⟨1, _⟩ => rfl | ⟨2, _⟩ => rfl
  rw [e]

end Cert.PatchMask

end
-- ==== Proof.lean ====
/-
  The kernel multiplies a batch × channel × time input by a channel × time mask of zeros and ones, made from the
  index input: out[b, c, t] = x[b, c, t] · mask[0, c, t]. The reference states the same product on the host.

  Both programs make the mask by the same host operations on the same literals, so the mask is never opened: it
  is one term of the index input on both sides (Proof/MaskArray.lean). The kernel's grid of 32 points writes the
  product four batch rows at a time, and the blocks fill the result (Proof/KernelArray.lean); the reference
  spreads the mask over the batch axis and multiplies (Proof/ReferenceArray.lean). Both results are the function
  `Cert.PatchMask.masked` (Proof/MaskedProduct.lean) of the same input and the same mask, entry by entry the same
  single product, so no law of the extended reals is used and the finiteness of the input is not needed.

  The three frames are the generated ones (the reference's is its generated run with the result dropped), and the
  idealization rewrote nothing, so there is nothing to preserve.
-/
import proofs.«138446_j6004364279952_1_alg».proof.Defs
import proofs.«138446_j6004364279952_1_alg».proof.Proof.Gen.Kernel
import proofs.«138446_j6004364279952_1_alg».proof.Proof.Gen.Kernel.Skeleton
import proofs.«138446_j6004364279952_1_alg».proof.Proof.Gen.Kernel.Launch
import proofs.«138446_j6004364279952_1_alg».proof.Proof.Gen.Kernel.Points
import proofs.«138446_j6004364279952_1_alg».proof.Proof.Gen.Kernel.Frame
import proofs.«138446_j6004364279952_1_alg».proof.Proof.Gen.KernelIdeal
import proofs.«138446_j6004364279952_1_alg».proof.Proof.Gen.KernelIdeal.Skeleton
import proofs.«138446_j6004364279952_1_alg».proof.Proof.Gen.KernelIdeal.Launch
import proofs.«138446_j6004364279952_1_alg».proof.Proof.Gen.KernelIdeal.Points
import proofs.«138446_j6004364279952_1_alg».proof.Proof.Gen.KernelIdeal.Frame
import proofs.«138446_j6004364279952_1_alg».proof.Proof.Gen.ReferenceIdeal
import proofs.«138446_j6004364279952_1_alg».proof.Proof.Gen.KernelIdeal.Value
import proofs.«138446_j6004364279952_1_alg».proof.Proof.Gen.ReferenceIdeal.Run
import proofs.«138446_j6004364279952_1_alg».proof.Proof.Gen.ReferenceIdeal.Read
import proofs.«138446_j6004364279952_1_alg».proof.Proof.Gen.Pre_finite_inputs
import proofs.«138446_j6004364279952_1_alg».proof.Proof.MaskedProduct
import proofs.«138446_j6004364279952_1_alg».proof.Proof.KernelArray
import proofs.«138446_j6004364279952_1_alg».proof.Proof.MaskArray
import proofs.«138446_j6004364279952_1_alg».proof.Proof.ReferenceArray
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no region: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the input masked by the mask stage of the index input: the kernel's because its
    blocks fill the array with the masked input and its region finds that mask, the reference's because spreading
    the mask over the batch axis and multiplying is the same product entry by entry. -/
theorem algebraic : Cert.algebraic_KernelIdeal_ReferenceIdeal := by
  intro m ρ m' ρ' _ hagree
  refine ⟨fun c => Cert.PatchMask.masked
      (m ((c.tc : Thread Cert.KernelIdeal.nD Cert.KernelIdeal.τ).loc Cert.KernelIdeal.main_arg0))
      (Cert.ReferenceIdeal.Read.val_main_v12 (F := Ideal)
        (m ((c.tc : Thread Cert.KernelIdeal.nD Cert.KernelIdeal.τ).loc Cert.KernelIdeal.main_arg1))), ?_, ?_⟩
  · refine (θ_run Cert.KernelIdeal.defs _ _).mono (fun r h c => ⟨(h c).1.trans ?_, (h c).2⟩)
      (Cert.KernelIdeal.Whole.run (F := Ideal) m ρ)
    rw [Cert.PatchMask.region_mask]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, Cert.PatchMask.reference_result, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
